-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S_ : Shape := ⟨0, ![]⟩

class Facts : Prop where
  bcast_S_S64x512x64 : S_.BroadcastsInDim S64x512x64 (![] : Fin 0 → Fin S64x512x64.rank)
  reducesTo_S64x512x64_S_d0_1_2 : S64x512x64.ReducesTo [0, 1, 2] S_
  h_S_ : 0 < S_.numel
  bcast_S_S64x16384x3 : S_.BroadcastsInDim S64x16384x3 (![] : Fin 0 → Fin S64x16384x3.rank)
  reducesTo_S64x16384x3_S_d0_1_2 : S64x16384x3.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_
  bcast_S_S1024x3 : S_.BroadcastsInDim S1024x3 (![] : Fin 0 → Fin S1024x3.rank)
  reducesTo_S1024x3_S_d0_1 : S1024x3.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S1024x3 .f32) (main_arg5 : FVec F S1024 .f32) (main_arg6 : FVec F S512x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3 .f32 := Host.absf main_arg4
  let main_cst_6 : FVec F S_ .f32 := constant S_ .f32 0x7F800000#32
  let main_v20 : FVec F S1024x3 .f32 := broadcastInDim S1024x3 ![] bcast_S_S1024x3 main_cst_6
  let main_v21 : IVec S1024x3 1 := cmpf .olt main_v19 main_v20
  let main_c_7 : IVec S_ 1 := constantI S_ 1 1#1
  let main_v22 : IVec S_ 1 := (fun x v => Host.reduce IntOp.andi x v reducesTo_S1024x3_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  main_v33

def fn {F : FTy → Type} [FloatOps F] (main_arg0 : FVec F S64x512x64 .f32) (main_arg1 : FVec F S64x16384x3 .f32) (main_arg2 : FVec F S1024x64 .f32) (main_arg3 : FVec F S1024 .f32) (main_arg4 : FVec F S1024x3 .f32) (main_arg5 : FVec F S1024 .f32) (main_arg6 : FVec F S512x1024 .f32) : IVec S_ 1 :=
  let main_v0 : FVec F S64x512x64 .f32 := Host.absf main_arg0
  let main_cst : FVec F S_ .f32 := constant S_ .f32 0x7F800000#32
  let main_v1 : FVec F S64x512x64 .f32 := broadcastInDim S64x512x64 ![] bcast_S_S64x512x64 main_cst
  let main_v2 : IVec S64x512x64 1 := cmpf .olt main_v0 main_v1
  let main_c : IVec S_ 1 := constantI S_ 1 1#1
  let main_v3 : IVec S_ 1 := (fun x v => Host.reduce IntOp.andi x v reducesTo_S64x512x64_S_d0_1_2 h_S_) main_v2 main_c
  let main_v4 : FVec F S64x16384x3 .f32 := Host.absf main_arg1
  let main_cst_0 : FVec F S_ .f32 := constant S_ .f32 0x7F800000#32
  let main_v5 : FVec F S64x16384x3 .f32 := broadcastInDim S64x16384x3 ![] bcast_S_S64x16384x3 main_cst_0
  let main_v6 : IVec S64x16384x3 1 := cmpf .olt main_v4 main_v5
  let main_c_1 : IVec S_ 1 := constantI S_ 1 1#1
  let main_v7 : IVec S_ 1 := (fun x v => Host.reduce IntOp.andi x v reducesTo_S64x16384x3_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S64x512x32x3 : Shape := ⟨4, ![64, 512, 32, 3]⟩
abbrev S_ : Shape := ⟨0, ![]⟩
abbrev S64x512x3 : Shape := ⟨3, ![64, 512, 3]⟩
abbrev S1x1024 : Shape := ⟨2, ![1, 1024]⟩
abbrev S64x512x1024 : Shape := ⟨3, ![64, 512, 1024]⟩
abbrev S1x512x64 : Shape := ⟨3, ![1, 512, 64]⟩
abbrev S1x512x3 : Shape := ⟨3, ![1, 512, 3]⟩
abbrev S1x512x1024 : Shape := ⟨3, ![1, 512, 1024]⟩
abbrev S512x64 : Shape := ⟨2, ![512, 64]⟩
abbrev S512x3 : Shape := ⟨2, ![512, 3]⟩

abbrev nBuf : Space → Nat
  | .hbm => 16
  | .vmem => 11
  | .smem => 0
  | _ => 0

abbrev bufTy : (tb : Table) → Fin (tcTables nBuf tb) → BufTy
  | .hbm, ⟨0, _⟩ => ⟨S64x512x64, .f32⟩
  | .hbm, ⟨1, _⟩ => ⟨S64x16384x3, .f32⟩
  | .hbm, ⟨2, _⟩ => ⟨S1024x64, .f32⟩
  | .hbm, ⟨3, _⟩ => ⟨S1024, .f32⟩
  | .hbm, ⟨4, _⟩ => ⟨S1024x3, .f32⟩
  | .hbm, ⟨5, _⟩ => ⟨S1024, .f32⟩
  | .hbm, ⟨6, _⟩ => ⟨S512x1024, .f32⟩
  | .hbm, ⟨7, _⟩ => ⟨S64x512x32x3, .f32⟩
  | .hbm, ⟨8, _⟩ => ⟨S_, .f32⟩
  | .hbm, ⟨9, _⟩ => ⟨S64x512x3, .f32⟩
  | .hbm, ⟨10, _⟩ => ⟨S_, .f32⟩
  | .hbm, ⟨11, _⟩ => ⟨S64x512x3, .f32⟩
  | .hbm, ⟨12, _⟩ => ⟨S64x512x3, .f32⟩
  | .hbm, ⟨13, _⟩ => ⟨S1x1024, .f32⟩
  | .hbm, ⟨14, _⟩ => ⟨S1x1024, .f32⟩
  | .hbm, ⟨15, _⟩ => ⟨S64x512x1024, .f32⟩
  | .local _ .vmem, ⟨0, _⟩ => ⟨S1x512x64, .f32⟩
  | .local _ .vmem, ⟨1, _⟩ => ⟨S1x512x64, .f32⟩
  | .local _ .vmem, ⟨2, _⟩ => ⟨S1x512x3, .f32⟩
  | .local _ .vmem, ⟨3, _⟩ => ⟨S1x512x3, .f32⟩
  | .local _ .vmem, ⟨4, _⟩ => ⟨S1024x64, .f32⟩
  | .local _ .vmem, ⟨5, _⟩ => ⟨S1x1024, .f32⟩
  | .local _ .vmem, ⟨6, _⟩ => ⟨S1024x3, .f32⟩
  | .local _ .vmem, ⟨7, _⟩ => ⟨S1x1024, .f32⟩
  | .local _ .vmem, ⟨8, _⟩ => ⟨S512x1024, .f32⟩
  | .local _ .vmem, ⟨9, _⟩ => ⟨S1x512x1024, .f32⟩
  | .local _ .vmem, ⟨10, _⟩ => ⟨S1x512x1024, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x16384x3_S64x512x32x3 : S64x16384x3.ShapeCasts S64x512x32x3
  reducesTo_S64x512x32x3_S64x512x3_d2 : S64x512x32x3.ReducesTo [2] S64x512x3
  h_S_ : 0 < S_.numel
  bcast_S_S64x512x3 : S_.BroadcastsInDim S64x512x3 (![] : Fin 0 → Fin S64x512x3.rank)
  shapeCasts_S1024_S1x1024 : S1024.ShapeCasts S1x1024
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1024x3_S1024x3_0_0 : ∀ a, (![0, 0] : Fin 2 → Nat) a + S1024x3.size a ≤ S1024x3.size a
  h_S1024x3 : 0 < S1024x3.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x64_S1024x64_S512x1024_1_1_0_0_n_n_wf : DotDims.WF S512x64 S1024x64 S512x1024 [1] [1] [0] [0] [] []
  dot_S512x3_S1024x3_S512x1024_1_1_0_0_n_n_wf : DotDims.WF S512x3 S1024x3 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x512x64.size a
  hwx0_0 : ∀ i : grid0.Coords, EltTy.bits .f32 = 32 ∨ (Rect.block (s := S64x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S64x512x3.size a
  hwx0_1 : ∀ i : grid0.Coords, EltTy.bits .f32 = 32 ∨ (Rect.block (s := S64x512x3) S1x512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3.size a ≤ S1024x3.size a
  hwx0_4 : ∀ i : grid0.Coords, EltTy.bits .f32 = 32 ∨ (Rect.block (s := S1024x3) S1024x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .f32 = 32 ∨ (Rect.block (s := S512x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S64x512x1024.size a
  hwx0_7 : ∀ i : grid0.Coords, EltTy.bits .f32 = 32 ∨ (Rect.block (s := S64x512x1024) S1x512x1024.size (cc0_transform_7 i) (hinb0_7 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x3_S1024x3_S512x1024_1_1_0_0_n_n : DotDims S512x3 S1024x3 S512x1024 where
  lhsContracting := [1]
  rhsContracting := [1]
  lhsNonContracting := [0]
  rhsNonContracting := [0]
  lhsBatch := []
  rhsBatch := []
  wf := dot_S512x3_S1024x3_S512x1024_1_1_0_0_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x64 : Shape := ⟨3, ![64, 512, 64]⟩
abbrev S64x16384x3 : Shape := ⟨3, ![64, 16384, 3]⟩
abbrev S1024x64 : Shape := ⟨2, ![1024, 64]⟩
abbrev S1024 : Shape := ⟨1, ![1024]⟩
abbrev S1024x3 : Shape := ⟨2, ![1024, 3]⟩
abbrev S512x1024 : Shape := ⟨2, ![512, 1024]⟩
abbrev S64x512x32x3 : Shape := ⟨4, ![64, 512, 32, 3]⟩
abbrev S_ : Shape := ⟨0, ![]⟩
abbrev S64x512x3 : Shape := ⟨3, ![64, 512, 3]⟩
abbrev S64x512x1024 : Shape := ⟨3, ![64, 512, 1024]⟩
abbrev S1x1x1024 : Shape := ⟨3, ![1, 1, 1024]⟩
abbrev S1x512x1024 : Shape := ⟨3, ![1, 512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S64x512x64, .f32⟩
  | .hbm, ⟨1, _⟩ => ⟨S64x16384x3, .f32⟩
  | .hbm, ⟨2, _⟩ => ⟨S1024x64, .f32⟩
  | .hbm, ⟨3, _⟩ => ⟨S1024, .f32⟩
  | .hbm, ⟨4, _⟩ => ⟨S1024x3, .f32⟩
  | .hbm, ⟨5, _⟩ => ⟨S1024, .f32⟩
  | .hbm, ⟨6, _⟩ => ⟨S512x1024, .f32⟩
  | .hbm, ⟨7, _⟩ => ⟨S64x512x32x3, .f32⟩
  | .hbm, ⟨8, _⟩ => ⟨S_, .f32⟩
  | .hbm, ⟨9, _⟩ => ⟨S64x512x3, .f32⟩
  | .hbm, ⟨10, _⟩ => ⟨S_, .f32⟩
  | .hbm, ⟨11, _⟩ => ⟨S64x512x3, .f32⟩
  | .hbm, ⟨12, _⟩ => ⟨S64x512x3, .f32⟩
  | .hbm, ⟨13, _⟩ => ⟨S64x512x1024, .f32⟩
  | .hbm, ⟨14, _⟩ => ⟨S1x1x1024, .f32⟩
  | .hbm, ⟨15, _⟩ => ⟨S64x512x1024, .f32⟩
  | .hbm, ⟨16, _⟩ => ⟨S64x512x1024, .f32⟩
  | .hbm, ⟨17, _⟩ => ⟨S64x512x1024, .f32⟩
  | .hbm, ⟨18, _⟩ => ⟨S64x512x1024, .f32⟩
  | .hbm, ⟨19, _⟩ => ⟨S1x1x1024, .f32⟩
  | .hbm, ⟨20, _⟩ => ⟨S64x512x1024, .f32⟩
  | .hbm, ⟨21, _⟩ => ⟨S64x512x1024, .f32⟩
  | .hbm, ⟨22, _⟩ => ⟨S1x512x1024, .f32⟩
  | .hbm, ⟨23, _⟩ => ⟨S64x512x1024, .f32⟩
  | .hbm, ⟨24, _⟩ => ⟨S64x512x1024, .f32⟩
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  shapeCasts_S64x16384x3_S64x512x32x3 : S64x16384x3.ShapeCasts S64x512x32x3
  reducesTo_S64x512x32x3_S64x512x3_d2 : S64x512x32x3.ReducesTo [2] S64x512x3
  h_S_ : 0 < S_.numel
  bcast_S_S64x512x3 : S_.BroadcastsInDim S64x512x3 (![] : Fin 0 → Fin S64x512x3.rank)
  bcast_S1024_S1x1x1024_2 : S1024.BroadcastsInDim S1x1x1024 (![2] : Fin 1 → Fin S1x1x1024.rank)
  bcast_S1x1x1024_S64x512x1024_0_1_2 : S1x1x1024.BroadcastsInDim S64x512x1024 (![0, 1, 2] : Fin 3 → Fin S64x512x1024.rank)
  bcast_S512x1024_S1x512x1024_1_2 : S512x1024.BroadcastsInDim S1x512x1024 (![1, 2] : Fin 2 → Fin S1x512x1024.rank)
  bcast_S1x512x1024_S64x512x1024_0_1_2 : S1x512x1024.BroadcastsInDim S64x512x1024 (![0, 1, 2] : Fin 3 → Fin S64x512x1024.rank)
  dot_S64x512x64_S1024x64_S64x512x1024_2_1_01_0_n_n_wf : DotDims.WF S64x512x64 S1024x64 S64x512x1024 [2] [1] [0, 1] [0] [] []
  dot_S64x512x3_S1024x3_S64x512x1024_2_1_01_0_n_n_wf : DotDims.WF S64x512x3 S1024x3 S64x512x1024 [2] [1] [0, 1] [0] [] []

variable [Facts₀]

def dot_S64x512x64_S1024x64_S64x512x1024_2_1_01_0_n_n : DotDims S64x512x64 S1024x64 S64x512x1024 where
  lhsContracting := [2]
  rhsContracting := [1]
  lhsNonContracting := [0, 1]
  rhsNonContracting := [0]
  lhsBatch := []
  rhsBatch := []
  wf := dot_S64x512x64_S1024x64_S64x512x1024_2_1_01_0_n_n_wf
def dot_S64x512x3_S1024x3_S64x512x1024_2_1_01_0_n_n : DotDims S64x512x3 S1024x3 S64x512x1024 where
  lhsContracting := [2]
  rhsContracting := [1]
  lhsNonContracting := [0, 1]
  rhsNonContracting := [0]
  lhsBatch := []
  rhsBatch := []
  wf := dot_S64x512x3_S1024x3_S64x512x1024_2_1_01_0_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibRowsByRows.lean ====
/-
  A matrix product whose two operands are BOTH contracted on their last axis, read by coordinates.

  For `lhs : [a, n]` and `rhs : [b, n]` and dimension numbers that contract axis 1 of each, keep axis 0 of each free and
  have no batch axis (the product `lhs · rhsᵀ`, what `einsum 'kp,dp->kd'` lowers to), the product into a zero
  accumulator at `(r, c)` is `Σ_p lhs(r, p) · rhs(c, p)` over the `n` shared coordinates, on the extended reals.
  The sum over the contraction's positions is re-indexed by the numbers below `n`, and the two operand indices at a
  position are identified coordinate by coordinate.
-/
import proofs.«127774_j47596827574387_1_alg».proof.Proof.LibContraction

noncomputable section

open scoped BigOperators

namespace Cert.Lib.RowsByRows

open Idealize.ShloMosaic Idealize.ShloMosaic.ValueIdx Cert.Lib

variable {a b n : Nat} (d : DotDims ⟨2, ![a, n]⟩ ⟨2, ![b, n]⟩ ⟨2, ![a, b]⟩)

/-- At position `p` the left operand is read at `(r, p)`: its free axis follows the result's row, its contracted axis the position. -/
theorem lhs_at (hlc : d.lhsContracting = [1]) (hln : d.lhsNonContracting = [0]) (hlb : d.lhsBatch = [])
    (r : Fin a) (c : Fin b) (p : Fin n) :
    d.lhsIdx (ix2 r c) ((Contraction.contrFin d hlc n rfl).symm p) = ix2 r p :=
  funext fun x => Fin.ext (by
    match x with
    | ⟨0, _⟩ => exact Contraction.lhs_free d hlb hln (ix2 r c) _ (Nat.zero_lt_two)
    | ⟨1, _⟩ => exact Contraction.lhs_contracted d hlc n rfl (ix2 r c) p)

/-- At position `p` the right operand is read at `(c, p)`: its free axis follows the result's column, its contracted axis the position. -/
theorem rhs_at (hlc : d.lhsContracting = [1]) (hrc : d.rhsContracting = [1]) (hln : d.lhsNonContracting = [0])
    (hrn : d.rhsNonContracting = [0]) (hlb : d.lhsBatch = []) (hrb : d.rhsBatch = [])
    (r : Fin a) (c : Fin b) (p : Fin n) :
    d.rhsIdx (ix2 r c) ((Contraction.contrFin d hlc n rfl).symm p) = ix2 c p :=
  funext fun x => Fin.ext (by
    match x with
    | ⟨0, _⟩ => exact Contraction.rhs_free d hlb hrb hln hrn (ix2 r c) _ (Nat.one_lt_two)
    | ⟨1, _⟩ => exact Contraction.rhs_contracted d hlc hrc n rfl (ix2 r c) p)

/-- The product into a zero accumulator, at `(r, c)`: the sum over the shared coordinate of row `r` of the left operand
    against row `c` of the right one. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (lhs : FVec Ideal ⟨2, ![a, n]⟩ φ₁) (rhs : FVec Ideal ⟨2, ![b, n]⟩ φ₂)
    (r : Fin a) (c : Fin b) :
    matmul d prec lhs rhs (constant (F := Ideal) ⟨2, ![a, b]⟩ .f32 0x00000000#32) (ix2 r c)
      = ∑ p : Fin n, lhs (ix2 r p) * rhs (ix2 c p) := by
  refine (Ideal.matmul_constant_zero_apply d prec lhs rhs (ix2 r c)).trans ?_
  rw [Contraction.sum_contr d hlc n rfl]
  refine Finset.sum_congr rfl fun p _ => ?_
  rw [lhs_at d hlc hln hlb r c p, rhs_at d hlc hrc hln hrn hlb hrb r c p]

end Cert.Lib.RowsByRows

end
-- ==== Proof.Payload.lean ====
/-
  What the kernel body stores, at one element of its output block.

  A grid point holds one batch: a `[1, 512, 64]` block of patches, a `[1, 512, 3]` block of pooled segment features, and the
  whole weights, biases (as `[1, 1024]` rows) and positional table. The stored `[1, 512, 1024]` block at (0, k, d) is

      ( ( ( Σ_p patches(0,k,p) · wLin(d,p)  +  bLin(0,d) )  +  Σ_s pooled(0,k,s) · wSeg(d,s) )  +  bSeg(0,d) )  +  pos(k,d).

  The narrowing to bf16 before each product is the identity on the extended reals; each product runs into a zero
  accumulator, so it is the plain sum; the leading unit axis of a block is dropped before the product and put back
  before the store, which moves no element; a bias row is repeated down the 512 token rows.
-/
import proofs.«127774_j47596827574387_1_alg».proof.Proof.Gen.KernelIdeal.Skeleton
import proofs.«127774_j47596827574387_1_alg».proof.Proof.LibRowsByRows
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.Lib

/-- A `[1, 512, 64]` block viewed `[512, 64]`: element (k, p) is element (0, k, p). -/
theorem view_patches (v : Vec Ideal S1x512x64 .f32) (k : Fin 512) (p : Fin 64) :
    shapeCast S512x64 v Facts₀.shapeCasts_S1x512x64_S512x64 (ix2 k p) = v (ix3 0 k p) :=
  shapeCast_apply v _ (ix2 k p) (ix3 0 k p) (by
    rw [Shape.rowMajor_val_three, Shape.rowMajor_val_two]
    show ((0 : Nat) * 512 + k.val) * 64 + p.val = k.val * 64 + p.val
    omega)

/-- A `[1, 512, 3]` block viewed `[512, 3]`: element (k, s) is element (0, k, s). -/
theorem view_pooled (v : Vec Ideal S1x512x3 .f32) (k : Fin 512) (s : Fin 3) :
    shapeCast S512x3 v Facts₀.shapeCasts_S1x512x3_S512x3 (ix2 k s) = v (ix3 0 k s) :=
  shapeCast_apply v _ (ix2 k s) (ix3 0 k s) (by
    rw [Shape.rowMajor_val_three, Shape.rowMajor_val_two]
    show ((0 : Nat) * 512 + k.val) * 3 + s.val = k.val * 3 + s.val
    omega)

/-- A `[512, 1024]` result stored as a `[1, 512, 1024]` block: element (0, k, d) is element (k, d). -/
theorem store_block (v : FVec Ideal S512x1024 .f32) (k : Fin 512) (d : Fin 1024) :
    shapeCast S1x512x1024 v Facts₀.shapeCasts_S512x1024_S1x512x1024 (ix3 0 k d) = v (ix2 k d) :=
  shapeCast_apply v _ (ix3 0 k d) (ix2 k d) (by
    rw [Shape.rowMajor_val_three, Shape.rowMajor_val_two]
    show k.val * 1024 + d.val = ((0 : Nat) * 512 + k.val) * 1024 + d.val
    omega)

/-- A `[1, 1024]` bias row repeated down the 512 token rows: element (k, d) is element (0, d) of the row. -/
theorem bias_rows (v : Vec Ideal S1x1024 .f32) (k : Fin 512) (d : Fin 1024) :
    broadcastTo S512x1024 (shapeCast S1x1024 v Facts₀.shapeCasts_S1x1024_S1x1024) Facts₀.broadcasts_S1x1024_S512x1024 (ix2 k d)
      = v (ix2 0 d) := by
  rw [shapeCast_self]
  exact broadcastTo_apply v _ (ix2 k d) (ix2 0 d) (fun a => match a with
    | ⟨0, _⟩ => by show (0 : Nat) = if (1 : Nat) = 1 then 0 else _; rw [if_pos rfl]
    | ⟨1, _⟩ => by show d.val = if (1024 : Nat) = 1 then 0 else d.val; rw [if_neg (by decide)])

/-- The stored block at (0, k, d), from the loaded blocks. -/
theorem pay_apply (v0 : Vec Ideal S1x512x64 .f32) (v3 : Vec Ideal S1024x64 .f32) (v5 : Vec Ideal S1x512x3 .f32)
    (v8 : Vec Ideal S1024x3 .f32) (v12 v17 : Vec Ideal S1x1024 .f32) (v21 : Vec Ideal S512x1024 .f32)
    (k : Fin 512) (d : Fin 1024) :
    k0_pay1 (F := Ideal) v0 v3 v5 v8 v12 v17 v21 (ix3 0 k d)
      = (∑ p : Fin 64, v0 (ix3 0 k p) * v3 (ix2 d p)) + v12 (ix2 0 d)
          + (∑ s : Fin 3, v5 (ix3 0 k s) * v8 (ix2 d s)) + v17 (ix2 0 d) + v21 (ix2 k d) := by
  unfold k0_pay1
  refine (store_block _ k d).trans ?_
  rw [addf_apply, addf_apply, addf_apply, addf_apply, bias_rows, bias_rows,
    RowsByRows.matmul_zero_apply dot_S512x64_S1024x64_S512x1024_1_1_0_0_n_n rfl rfl rfl rfl rfl rfl,
    RowsByRows.matmul_zero_apply dot_S512x3_S1024x3_S512x1024_1_1_0_0_n_n rfl rfl rfl rfl rfl rfl]
  refine congrArg₂ (· + ·) (congrArg₂ (· + ·) (congrArg₂ (· + ·) (congrArg₂ (· + ·) ?_ rfl) ?_) rfl) rfl
  · exact Finset.sum_congr rfl fun p _ => by rw [truncf_apply, truncf_apply, view_patches]
  · exact Finset.sum_congr rfl fun s _ => by rw [truncf_apply, truncf_apply, view_pooled]

end Cert.KernelIdeal.Body

end
-- ==== Proof.Spec.lean ====
/-
  The fused token embedding as ONE function of its arrays, index by index, over the extended reals.

  For a batch `b`, a token `k` and a feature `d` the result is

      ( ( ( Σ_p patches[b,k,p] · W_lin[d,p]  +  b_lin[d] )  +  Σ_s pooled[b,k,s] · W_seg[d,s] )  +  b_seg[d] )  +  pos[k,d]

  with the five terms added in exactly this order. `pooled` is the chunk mean of the segment features; both programs
  compute it by the same operations before anything else, so here it is a parameter. No law beyond the shape of the two
  sums is used: nothing is distributed or cancelled, so the statement holds at the infinities too.
-/
import Idealize.ShloMosaic.PureOps.Ideal
import Idealize.ShloMosaic.Lib.ValueIdx

noncomputable section

open scoped BigOperators

namespace Cert.Fused

open Idealize.ShloMosaic Idealize.ShloMosaic.ValueIdx

/-- The linear part at one (token row, feature): the row of `x` against the row `d` of `w`, over the `n` shared
    coordinates. Stated for a row taken out of a rank-3 array (`b`, `k` fixed) against a rank-2 weight. -/
def rowDot {nb nk nd n : Nat} (x : FVec Ideal ⟨3, ![nb, nk, n]⟩ .f32) (w : FVec Ideal ⟨2, ![nd, n]⟩ .f32)
    (b : Fin nb) (k : Fin nk) (d : Fin nd) : EReal :=
  ∑ p : Fin n, x (ix3 b k p) * w (ix2 d p)

/-- The whole result array: linear part of the patches, its bias, linear part of the pooled segments, its bias, and the
    positional term, added left to right. -/
def fused (patches : FVec Ideal ⟨3, ![64, 512, 64]⟩ .f32) (pooled : FVec Ideal ⟨3, ![64, 512, 3]⟩ .f32)
    (wLin : FVec Ideal ⟨2, ![1024, 64]⟩ .f32) (bLin : FVec Ideal ⟨1, ![1024]⟩ .f32)
    (wSeg : FVec Ideal ⟨2, ![1024, 3]⟩ .f32) (bSeg : FVec Ideal ⟨1, ![1024]⟩ .f32)
    (pos : FVec Ideal ⟨2, ![512, 1024]⟩ .f32) : FVec Ideal ⟨3, ![64, 512, 1024]⟩ .f32 :=
  fun i =>
    rowDot patches wLin (i 0) (i 1) (i 2) + bLin (ix1 (i 2)) + rowDot pooled wSeg (i 0) (i 1) (i 2) + bSeg (ix1 (i 2))
      + pos (ix2 (i 1) (i 2))

end Cert.Fused

end
-- ==== Proof.KernelValue.lean ====
/-
  The kernel's output array, as one function of the arguments.

  Grid point `t` of the 64 works on batch `t`: it is handed the `[1, 512, 64]` block `t` of the patches and the
  `[1, 512, 3]` block `t` of the pooled segment features (which the program computes before the call: the sum of each run of
  32 consecutive segment rows divided by 32), the whole of both weights and of the positional table, and the two biases as
  `[1, 1024]` rows; it writes back block `t` of the result. Element (0, k, d) of what it writes is the specification's value
  at (t, k, d), so what point `t` writes back is block `t` of the specification; the 64 blocks tile the result array, so the
  array ends holding the specification everywhere.
-/
import proofs.«127774_j47596827574387_1_alg».proof.Proof.Gen.KernelIdeal.Value
import proofs.«127774_j47596827574387_1_alg».proof.Proof.Payload
import proofs.«127774_j47596827574387_1_alg».proof.Proof.Spec
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Fused
open Idealize.ShloMosaic.Pipeline (Dat)

variable (m : (ℓ : Loc nD τ sig) → Buf (Elt Ideal) ℓ) (ρ : Dev nD → PrngReg)

/-! ## What the program computes before the call -/

/-- The pooled segment features: the segments regrouped as 512 runs of 32 rows, each run summed from zero, the sums
    divided by 32. Never opened: the reference computes the same term. -/
def pooledOf (x : FVec Ideal S64x16384x3 .f32) : FVec Ideal S64x512x3 .f32 :=
  Host.divf (F := Ideal)
    (Host.reduceAdd (shapeCast S64x512x32x3 x Facts₀.shapeCasts_S64x16384x3_S64x512x32x3)
      (constant (F := Ideal) S_ .f32 0x00000000#32) Facts₀.reducesTo_S64x512x32x3_S64x512x3_d2 Facts₀.h_S_)
    (broadcastInDim S64x512x3 ![] Facts₀.bcast_S_S64x512x3 (constant (F := Ideal) S_ .f32 0x42000000#32))

/-- The call finds the pooled features of the segment argument in its second operand's array. -/
theorem entry_pooled (c : Dev nD) :
    (V m c main_v3 : S64x512x3.Idx → EReal) = pooledOf (m ((c : Thread nD τ).loc main_arg1)) := by
  dsimp only [Gen.V, Gen.hostOps0]; after_results; rfl

/-- It finds the first bias as a one-row matrix. -/
theorem entry_bLin (c : Dev nD) :
    (V m c main_v4 : S1x1024.Idx → EReal) = shapeCast S1x1024 (m ((c : Thread nD τ).loc main_arg3)) Facts₀.shapeCasts_S1024_S1x1024 := by
  dsimp only [Gen.V, Gen.hostOps0]; after_results; rfl

/-- And the second bias likewise. -/
theorem entry_bSeg (c : Dev nD) :
    (V m c main_v5 : S1x1024.Idx → EReal) = shapeCast S1x1024 (m ((c : Thread nD τ).loc main_arg5)) Facts₀.shapeCasts_S1024_S1x1024 := by
  dsimp only [Gen.V, Gen.hostOps0]; after_results; rfl

/-- A vector viewed as a one-row matrix: element (0, d) is element d. -/
theorem row_of_vector (v : FVec Ideal S1024 .f32) (d : Fin 1024) :
    shapeCast S1x1024 v Facts₀.shapeCasts_S1024_S1x1024 (ix2 0 d) = v (ix1 d) :=
  shapeCast_apply v _ (ix2 0 d) (ix1 d) (by
    rw [Shape.rowMajor_val_one, Shape.rowMajor_val_two]
    show d.val = (0 : Nat) * 1024 + d.val
    omega)

/-! ## The result, and the batch a grid point works on -/

/-- The output array the kernel's program ends with on core `c`: the specification at the launch contents of the
    arguments. -/
def result (c : Dev nD) : FVec Ideal S64x512x1024 .f32 :=
  fused (m ((c : Thread nD τ).loc main_arg0)) (pooledOf (m ((c : Thread nD τ).loc main_arg1)))
    (m ((c : Thread nD τ).loc main_arg2)) (m ((c : Thread nD τ).loc main_arg3)) (m ((c : Thread nD τ).loc main_arg4))
    (m ((c : Thread nD τ).loc main_arg5)) (m ((c : Thread nD τ).loc main_arg6))

/-- Grid point `t` works on batch `t`. -/
def batch (t : Fin cfg0.N) : Fin 64 := ⟨t.val, lt_of_lt_of_eq t.isLt (N_0 : cfg0.N = 64)⟩

theorem batch_val (t : Fin cfg0.N) : (batch t).val = t.val := rfl

/-! ## The index maps, decided over the 64 grid points -/

theorem idx_patches : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_pooled : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_wLin : ∀ t : Fin cfg0.N, win0_2.index t (0 : Fin 2) = 0 ∧ win0_2.index t (1 : Fin 2) = 0 :=
  (by decide +kernel : ∀ t : Fin grid0.N, _)
theorem idx_bLin : ∀ t : Fin cfg0.N, win0_3.index t (0 : Fin 2) = 0 ∧ win0_3.index t (1 : Fin 2) = 0 :=
  (by decide +kernel : ∀ t : Fin grid0.N, _)
theorem idx_wSeg : ∀ t : Fin cfg0.N, win0_4.index t (0 : Fin 2) = 0 ∧ win0_4.index t (1 : Fin 2) = 0 :=
  (by decide +kernel : ∀ t : Fin grid0.N, _)
theorem idx_bSeg : ∀ t : Fin cfg0.N, win0_5.index t (0 : Fin 2) = 0 ∧ win0_5.index t (1 : Fin 2) = 0 :=
  (by decide +kernel : ∀ t : Fin grid0.N, _)
theorem idx_pos : ∀ t : Fin cfg0.N, win0_6.index t (0 : Fin 2) = 0 ∧ win0_6.index t (1 : Fin 2) = 0 :=
  (by decide +kernel : ∀ t : Fin grid0.N, _)
theorem idx_out : ∀ t : Fin cfg0.N, win0_7.index t (0 : Fin 3) = t.val ∧ win0_7.index t (1 : Fin 3) = 0 ∧ win0_7.index t (2 : Fin 3) = 0 :=
  (by decide +kernel : ∀ t : Fin grid0.N, _)

/-! ## The input blocks at a grid point, read off the arguments -/

/-- The patches block at point `t`: element (0, k, p) is the argument's element (t, k, p). -/
theorem read_patches (c : Dev nD) (t : Fin cfg0.N) (k : Fin 512) (p : Fin 64) :
    (iblk m c 0 t : S1x512x64.Idx → EReal) (ix3 0 k p) = m ((c : Thread nD τ).loc main_arg0) (ix3 (batch t) k p) := by
  show V m c main_arg0 (((cfg0.win 0).blk t).view.emb (ix3 0 k p)) = _
  rw [V_main_arg0]
  obtain ⟨e0, e1, e2⟩ := idx_patches t
  refine congrArg (m ((c : Thread nD τ).loc main_arg0)) (funext fun a => Fin.ext ?_)
  match a with
  | ⟨0, _⟩ => show win0_0.index t (0 : Fin 3) * 1 + 1 * (0 : Nat) = t.val; omega
  | ⟨1, _⟩ => show win0_0.index t (1 : Fin 3) * 512 + 1 * k.val = k.val; omega
  | ⟨2, _⟩ => show win0_0.index t (2 : Fin 3) * 64 + 1 * p.val = p.val; omega

/-- The pooled block at point `t`: element (0, k, s) is the pooled features' element (t, k, s). -/
theorem read_pooled (c : Dev nD) (t : Fin cfg0.N) (k : Fin 512) (s : Fin 3) :
    (iblk m c 1 t : S1x512x3.Idx → EReal) (ix3 0 k s) = pooledOf (m ((c : Thread nD τ).loc main_arg1)) (ix3 (batch t) k s) := by
  show V m c main_v3 (((cfg0.win 1).blk t).view.emb (ix3 0 k s)) = _
  rw [entry_pooled]
  obtain ⟨e0, e1, e2⟩ := idx_pooled t
  refine congrArg (pooledOf (m ((c : Thread nD τ).loc main_arg1))) (funext fun a => Fin.ext ?_)
  match a with
  | ⟨0, _⟩ => show win0_1.index t (0 : Fin 3) * 1 + 1 * (0 : Nat) = t.val; omega
  | ⟨1, _⟩ => show win0_1.index t (1 : Fin 3) * 512 + 1 * k.val = k.val; omega
  | ⟨2, _⟩ => show win0_1.index t (2 : Fin 3) * 3 + 1 * s.val = s.val; omega

/-- Every point is handed the whole first weight. -/
theorem read_wLin (c : Dev nD) (t : Fin cfg0.N) (d : Fin 1024) (p : Fin 64) :
    (iblk m c 2 t : S1024x64.Idx → EReal) (ix2 d p) = m ((c : Thread nD τ).loc main_arg2) (ix2 d p) := by
  show V m c main_arg2 (((cfg0.win 2).blk t).view.emb (ix2 d p)) = _
  rw [V_main_arg2]
  obtain ⟨e0, e1⟩ := idx_wLin t
  refine congrArg (m ((c : Thread nD τ).loc main_arg2)) (funext fun a => Fin.ext ?_)
  match a with
  | ⟨0, _⟩ => show win0_2.index t (0 : Fin 2) * 1024 + 1 * d.val = d.val; omega
  | ⟨1, _⟩ => show win0_2.index t (1 : Fin 2) * 64 + 1 * p.val = p.val; omega

/-- Every point is handed the whole second weight. -/
theorem read_wSeg (c : Dev nD) (t : Fin cfg0.N) (d : Fin 1024) (s : Fin 3) :
    (iblk m c 4 t : S1024x3.Idx → EReal) (ix2 d s) = m ((c : Thread nD τ).loc main_arg4) (ix2 d s) := by
  show V m c main_arg4 (((cfg0.win 4).blk t).view.emb (ix2 d s)) = _
  rw [V_main_arg4]
  obtain ⟨e0, e1⟩ := idx_wSeg t
  refine congrArg (m ((c : Thread nD τ).loc main_arg4)) (funext fun a => Fin.ext ?_)
  match a with
  | ⟨0, _⟩ => show win0_4.index t (0 : Fin 2) * 1024 + 1 * d.val = d.val; omega
  | ⟨1, _⟩ => show win0_4.index t (1 : Fin 2) * 3 + 1 * s.val = s.val; omega

/-- Every point is handed the whole positional table. -/
theorem read_pos (c : Dev nD) (t : Fin cfg0.N) (k : Fin 512) (d : Fin 1024) :
    (iblk m c 6 t : S512x1024.Idx → EReal) (ix2 k d) = m ((c : Thread nD τ).loc main_arg6) (ix2 k d) := by
  show V m c main_arg6 (((cfg0.win 6).blk t).view.emb (ix2 k d)) = _
  rw [V_main_arg6]
  obtain ⟨e0, e1⟩ := idx_pos t
  refine congrArg (m ((c : Thread nD τ).loc main_arg6)) (funext fun a => Fin.ext ?_)
  match a with
  | ⟨0, _⟩ => show win0_6.index t (0 : Fin 2) * 512 + 1 * k.val = k.val; omega
  | ⟨1, _⟩ => show win0_6.index t (1 : Fin 2) * 1024 + 1 * d.val = d.val; omega

/-- Every point is handed the first bias as its one row: element (0, d) is the argument's element d. -/
theorem read_bLin (c : Dev nD) (t : Fin cfg0.N) (d : Fin 1024) :
    (iblk m c 3 t : S1x1024.Idx → EReal) (ix2 0 d) = m ((c : Thread nD τ).loc main_arg3) (ix1 d) := by
  show V m c main_v4 (((cfg0.win 3).blk t).view.emb (ix2 0 d)) = _
  rw [entry_bLin]
  obtain ⟨e0, e1⟩ := idx_bLin t
  have he : ((cfg0.win 3).blk t).view.emb (ix2 0 d) = (ix2 0 d : S1x1024.Idx) := funext fun a => Fin.ext (by
    match a with
    | ⟨0, _⟩ => show win0_3.index t (0 : Fin 2) * 1 + 1 * (0 : Nat) = 0; omega
    | ⟨1, _⟩ => show win0_3.index t (1 : Fin 2) * 1024 + 1 * d.val = d.val; omega)
  rw [he]
  exact row_of_vector _ d

/-- And the second bias likewise. -/
theorem read_bSeg (c : Dev nD) (t : Fin cfg0.N) (d : Fin 1024) :
    (iblk m c 5 t : S1x1024.Idx → EReal) (ix2 0 d) = m ((c : Thread nD τ).loc main_arg5) (ix1 d) := by
  show V m c main_v5 (((cfg0.win 5).blk t).view.emb (ix2 0 d)) = _
  rw [entry_bSeg]
  obtain ⟨e0, e1⟩ := idx_bSeg t
  have he : ((cfg0.win 5).blk t).view.emb (ix2 0 d) = (ix2 0 d : S1x1024.Idx) := funext fun a => Fin.ext (by
    match a with
    | ⟨0, _⟩ => show win0_5.index t (0 : Fin 2) * 1 + 1 * (0 : Nat) = 0; omega
    | ⟨1, _⟩ => show win0_5.index t (1 : Fin 2) * 1024 + 1 * d.val = d.val; omega)
  rw [he]
  exact row_of_vector _ d

/-! ## What a grid point computes and writes back -/

/-- The body's stored value at (0, k, d), at point `t`, is the specification at (t, k, d). -/
theorem block_value (c : Dev nD) (t : Fin cfg0.N) (k : Fin 512) (d : Fin 1024) :
    k0_pay1 (F := Ideal) (iblk m c 0 t) (iblk m c 2 t) (iblk m c 1 t) (iblk m c 4 t) (iblk m c 3 t) (iblk m c 5 t) (iblk m c 6 t) (ix3 0 k d)
      = result m c (ix3 (batch t) k d) := by
  refine (Body.pay_apply (iblk m c 0 t) (iblk m c 2 t) (iblk m c 1 t) (iblk m c 4 t) (iblk m c 3 t) (iblk m c 5 t) (iblk m c 6 t) k d).trans ?_
  simp only [read_patches, read_pooled, read_wLin, read_wSeg, read_bLin, read_bSeg, read_pos]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- Element (0, k, d) of the output block at point `t` sits at (t, k, d) of the result array. -/
theorem out_emb (t : Fin cfg0.N) (k : Fin 512) (d : Fin 1024) :
    ((cfg0.win 7).blk t).view.emb (ix3 0 k d) = (ix3 (batch t) k d : S64x512x1024.Idx) := funext fun a => Fin.ext (by
  obtain ⟨e0, e1, e2⟩ := idx_out t
  match a with
  | ⟨0, _⟩ => show win0_7.index t (0 : Fin 3) * 1 + 1 * (0 : Nat) = t.val; omega
  | ⟨1, _⟩ => show win0_7.index t (1 : Fin 3) * 512 + 1 * k.val = k.val; omega
  | ⟨2, _⟩ => show win0_7.index t (2 : Fin 3) * 1024 + 1 * d.val = d.val; omega)

/-- WHAT POINT `t` WRITES BACK is block `t` of the specification. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz3]
  simp only [View.ld_unit_zero (S := S1x512x64) hz3, View.ld_unit_zero (S := S1024x64) hz2, View.ld_unit_zero (S := S1x512x3) hz3,
    View.ld_unit_zero (S := S1024x3) hz2, View.ld_unit_zero (S := S1x1024) hz2, View.ld_unit_zero (S := S512x1024) hz2]
  funext j
  obtain ⟨z, k, d, rfl⟩ : ∃ (z : Fin 1) (k : Fin 512) (d : Fin 1024), j = (ix3 z k d : S1x512x1024.Idx) :=
    ⟨j 0, j 1, j 2, eq_ix3 (n0 := 1) (n1 := 512) (n2 := 1024) j⟩
  obtain rfl : z = 0 := Subsingleton.elim _ _
  show k0_pay1 (F := Ideal) (iblk m c 0 t) (iblk m c 2 t) (iblk m c 1 t) (iblk m c 4 t) (iblk m c 3 t) (iblk m c 5 t) (iblk m c 6 t) (ix3 0 k d)
    = result m c (((cfg0.win 7).blk t).view.emb (ix3 0 k d))
  rw [out_emb]
  exact block_value m c t k d

/-! ## The 64 blocks tile the result -/

/-- An element of the result is in point `t`'s block iff each coordinate is in the block's range on its axis. -/
theorem mem_blk (t : Fin cfg0.N) (i : S64x512x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v6).slice (win0_7.rect t)).set ↔ _
  rw [View.set_slice_whole, Rect.mem_set_unit]
  exact Iff.rfl

/-- Element (b, k, d) is in the block of point `b`, and every point writes its block back. -/
theorem cover (i : S64x512x1024.Idx) :
    ∃ t : Fin cfg0.N, (cfg0.win 7).flush t = true ∧ i ∈ ((cfg0.win 7).blk t).view.set := by
  have h0 : (i 0).val < 64 := (i 0).isLt
  have h1 : (i 1).val < 512 := (i 1).isLt
  have h2 : (i 2).val < 1024 := (i 2).isLt
  let tt : Fin cfg0.N := ⟨(i 0).val, lt_of_lt_of_eq h0 (N_0 : cfg0.N = 64).symm⟩
  have htt : tt.val = (i 0).val := rfl
  obtain ⟨e0, e1, e2⟩ := idx_out tt
  refine ⟨tt, flush0_7 tt, ?_⟩
  rw [mem_blk]
  intro a
  match a with
  | ⟨0, _⟩ => show win0_7.index tt (0 : Fin 3) * 1 ≤ (i 0).val ∧ (i 0).val < win0_7.index tt (0 : Fin 3) * 1 + 1; omega
  | ⟨1, _⟩ => show win0_7.index tt (1 : Fin 3) * 512 ≤ (i 1).val ∧ (i 1).val < win0_7.index tt (1 : Fin 3) * 512 + 512; omega
  | ⟨2, _⟩ => show win0_7.index tt (2 : Fin 3) * 1024 ≤ (i 2).val ∧ (i 2).val < win0_7.index tt (2 : Fin 3) * 1024 + 1024; omega

/-- THE RESULT ARRAY after the run is the specification. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program ends with the result array at the specification of the launch
    contents of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefValue.lean ====
/-
  The reference computes the fused embedding.

  Read one operation at a time, the reference's result at (b, k, d) is the contraction of `patches[b, k, ·]` with
  `W_lin[d, ·]`, plus `b_lin[d]` (a vector broadcast along the feature axis), plus the contraction of the pooled
  segment features `[b, k, ·]` with `W_seg[d, ·]`, plus `b_seg[d]`, plus `pos[k, d]` (the table broadcast along the
  batch axis) — added in that order. That is the specification `Cert.Fused.fused`, with the pooled features the
  reference's own first six operations of the segments.
-/
import proofs.«127774_j47596827574387_1_alg».proof.Proof.Gen.ReferenceIdeal.Read
import proofs.«127774_j47596827574387_1_alg».proof.Proof.Spec

noncomputable section

open scoped BigOperators

namespace Cert.ReferenceIdeal.RefValue

open Idealize.ShloMosaic Idealize.ShloMosaic.ValueIdx Cert.ReferenceIdeal Cert.ReferenceIdeal.Read Cert.Fused

/-- The left operand of the first contraction at position `p`: patches at (b, k, p). -/
theorem lidx4 (i : S64x512x1024.Idx) (p : Fin 64) : lidx_main_v4 i p = ix3 (i 0) (i 1) p :=
  funext fun a => Fin.ext (by match a with | ⟨0, _⟩ => rfl | ⟨1, _⟩ => rfl | ⟨2, _⟩ => rfl)
/-- Its right operand: the weight at (d, p). -/
theorem ridx4 (i : S64x512x1024.Idx) (p : Fin 64) : ridx_main_v4 i p = ix2 (i 2) p :=
  funext fun a => Fin.ext (by match a with | ⟨0, _⟩ => rfl | ⟨1, _⟩ => rfl)
/-- The left operand of the second contraction at position `s`: pooled features at (b, k, s). -/
theorem lidx8 (i : S64x512x1024.Idx) (s : Fin 3) : lidx_main_v8 i s = ix3 (i 0) (i 1) s :=
  funext fun a => Fin.ext (by match a with | ⟨0, _⟩ => rfl | ⟨1, _⟩ => rfl | ⟨2, _⟩ => rfl)
/-- Its right operand: the weight at (d, s). -/
theorem ridx8 (i : S64x512x1024.Idx) (s : Fin 3) : ridx_main_v8 i s = ix2 (i 2) s :=
  funext fun a => Fin.ext (by match a with | ⟨0, _⟩ => rfl | ⟨1, _⟩ => rfl)
/-- A bias broadcast to the result reads its feature coordinate. -/
theorem bias_idx (i : S64x512x1024.Idx) : idx_main_v5 (idx_main_v6 i) = ix1 (i 2) :=
  funext fun a => Fin.ext (by match a with | ⟨0, _⟩ => rfl)
theorem bias_idx' (i : S64x512x1024.Idx) : idx_main_v10 (idx_main_v11 i) = ix1 (i 2) :=
  funext fun a => Fin.ext (by match a with | ⟨0, _⟩ => rfl)
/-- The positional table broadcast to the result reads its token and feature coordinates. -/
theorem pos_idx (i : S64x512x1024.Idx) : idx_main_v13 (idx_main_v14 i) = ix2 (i 1) (i 2) :=
  funext fun a => Fin.ext (by match a with | ⟨0, _⟩ => rfl | ⟨1, _⟩ => rfl)

/-- The reference's last stage is the specification, the pooled features being its own fourth stage. -/
theorem result_eq (x0 : FVec Ideal S64x512x64 .f32) (x1 : FVec Ideal S64x16384x3 .f32) (x2 : FVec Ideal S1024x64 .f32)
    (x3 : FVec Ideal S1024 .f32) (x4 : FVec Ideal S1024x3 .f32) (x5 : FVec Ideal S1024 .f32) (x6 : FVec Ideal S512x1024 .f32) :
    val_main_v15 (F := Ideal) x0 x1 x2 x3 x4 x5 x6 = fused x0 (val_main_v3 (F := Ideal) x1) x2 x3 x4 x5 x6 := by
  funext i
  rw [val_main_v15_apply, val_main_v12_apply, val_main_v9_apply, val_main_v7_apply, val_main_v4_apply, val_main_v6_apply,
    val_main_v5_apply, val_main_v8_apply, val_main_v11_apply, val_main_v10_apply, val_main_v14_apply, val_main_v13_apply]
  simp only [Ideal.addf_def, lidx4, ridx4, lidx8, ridx8, bias_idx, bias_idx', pos_idx]
  rfl

end Cert.ReferenceIdeal.RefValue

end
-- ==== Proof.lean ====
/-
  A fused token embedding: for a batch b, a token k and a feature d,

      x[b,k,d] = Σ_p patches[b,k,p] · W_lin[d,p] + b_lin[d] + Σ_s pooled[b,k,s] · W_seg[d,s] + b_seg[d] + pos[k,d],

  where pooled[b,k,·] is the mean of the 32 consecutive segment rows 32k … 32k+31 of batch b (their sum divided by 32).

  The kernel computes the pooled features before its one call; the call runs one grid point per batch, which multiplies
  the batch's `[512, 64]` patches and `[512, 3]` pooled features against the two weights (each narrowed to bf16 first, into a
  zero accumulator) and adds the two biases and the positional table. The reference contracts the whole `[64, 512, ·]`
  arrays against the weights and adds the same three terms, broadcast. Over the extended reals the narrowing is the
  identity, a product into a zero accumulator is the plain sum, and both programs add the five terms in the same order,
  so the two results are the same function of the arguments element by element (`Cert.Fused.fused`): no term is
  distributed, cancelled or reordered, and finiteness of the inputs is never used. The pooled features are the same
  operations of the segments in both programs and are carried as one unopened term.

  The kernel's run ends at that function of its arguments (Proof/KernelValue.lean, over Proof/Payload.lean), the
  reference's run does (Proof/RefValue.lean); the idealization rewrote nothing, so what it must preserve is trivial; and
  each program's frame — it terminates, nothing faults, its arguments end unchanged — comes with its run.
-/
import proofs.«127774_j47596827574387_1_alg».proof.Defs
import proofs.«127774_j47596827574387_1_alg».proof.Proof.Gen.Kernel
import proofs.«127774_j47596827574387_1_alg».proof.Proof.Gen.Kernel.Skeleton
import proofs.«127774_j47596827574387_1_alg».proof.Proof.Gen.Kernel.Launch
import proofs.«127774_j47596827574387_1_alg».proof.Proof.Gen.Kernel.Points
import proofs.«127774_j47596827574387_1_alg».proof.Proof.Gen.Kernel.Frame
import proofs.«127774_j47596827574387_1_alg».proof.Proof.Gen.KernelIdeal
import proofs.«127774_j47596827574387_1_alg».proof.Proof.Gen.KernelIdeal.Skeleton
import proofs.«127774_j47596827574387_1_alg».proof.Proof.Gen.KernelIdeal.Launch
import proofs.«127774_j47596827574387_1_alg».proof.Proof.Gen.KernelIdeal.Points
import proofs.«127774_j47596827574387_1_alg».proof.Proof.Gen.KernelIdeal.Frame
import proofs.«127774_j47596827574387_1_alg».proof.Proof.Gen.ReferenceIdeal
import proofs.«127774_j47596827574387_1_alg».proof.Proof.Gen.Pre_finite_inputs
import proofs.«127774_j47596827574387_1_alg».proof.Proof.Gen.KernelIdeal.Value
import proofs.«127774_j47596827574387_1_alg».proof.Proof.Gen.ReferenceIdeal.Run
import proofs.«127774_j47596827574387_1_alg».proof.Proof.Gen.ReferenceIdeal.Read
import proofs.«127774_j47596827574387_1_alg».proof.Proof.KernelValue
import proofs.«127774_j47596827574387_1_alg».proof.Proof.RefValue
import Idealize.ShloMosaic.Adequacy
import Idealize.ShloMosaic.Init

noncomputable section

namespace Cert.Proof

open Idealize.ShloMosaic Idealize.SL.Sem

/-- The reference's pooled features are the kernel program's: the same regrouping, sum from zero and division by 32 of the
    segments. -/
theorem pooled_eq (x : FVec Ideal Cert.ReferenceIdeal.S64x16384x3 .f32) :
    Cert.ReferenceIdeal.Read.val_main_v3 (F := Ideal) x = Cert.KernelIdeal.Whole.pooledOf x := rfl

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the fused embedding of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, Cert.ReferenceIdeal.RefValue.result_eq, pooled_eq, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
